-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x4096 : Shape := ⟨3, ![4, 2048, 4096]⟩
abbrev S11008x4096 : Shape := ⟨2, ![11008, 4096]⟩
abbrev S11008x1 : Shape := ⟨2, ![11008, 1]⟩
abbrev S11008 : Shape := ⟨1, ![11008]⟩
abbrev S_ : Shape := ⟨0, ![]⟩

class Facts : Prop where
  bcast_S_S4x2048x4096 : S_.BroadcastsInDim S4x2048x4096 (![] : Fin 0 → Fin S4x2048x4096.rank)
  reducesTo_S4x2048x4096_S_d0_1_2 : S4x2048x4096.ReducesTo [0, 1, 2] S_
  h_S_ : 0 < S_.numel
  bcast_S_S11008x1 : S_.BroadcastsInDim S11008x1 (![] : Fin 0 → Fin S11008x1.rank)
  reducesTo_S11008x1_S_d0_1 : S11008x1.ReducesTo [0, 1] S_
  bcast_S_S11008 : S_.BroadcastsInDim S11008 (![] : Fin 0 → Fin S11008.rank)
  reducesTo_S11008_S_d0 : S11008.ReducesTo [0] S_

variable [Facts]

def fn {F : FTy → Type} [FloatOps F] (main_arg0 : FVec F S4x2048x4096 .f32) (main_arg1 : IVec S11008x4096 32) (main_arg2 : FVec F S11008x1 .f32) (main_arg3 : FVec F S11008 .f32) : IVec S_ 1 :=
  let main_v0 : FVec F S4x2048x4096 .f32 := Host.absf main_arg0
  let main_cst : FVec F S_ .f32 := constant S_ .f32 0x7F800000#32
  let main_v1 : FVec F S4x2048x4096 .f32 := broadcastInDim S4x2048x4096 ![] bcast_S_S4x2048x4096 main_cst
  let main_v2 : IVec S4x2048x4096 1 := cmpf .olt main_v0 main_v1
  let main_c : IVec S_ 1 := constantI S_ 1 1#1
  let main_v3 : IVec S_ 1 := (fun x v => Host.reduce IntOp.andi x v reducesTo_S4x2048x4096_S_d0_1_2 h_S_) main_v2 main_c
  let main_v4 : FVec F S11008x1 .f32 := Host.absf main_arg2
  let main_cst_0 : FVec F S_ .f32 := constant S_ .f32 0x7F800000#32
  let main_v5 : FVec F S11008x1 .f32 := broadcastInDim S11008x1 ![] bcast_S_S11008x1 main_cst_0
  let main_v6 : IVec S11008x1 1 := cmpf .olt main_v4 main_v5
  let main_c_1 : IVec S_ 1 := constantI S_ 1 1#1
  let main_v7 : IVec S_ 1 := (fun x v => Host.reduce IntOp.andi x v reducesTo_S11008x1_S_d0_1 h_S_) main_v6 main_c_1
  let main_v8 : IVec S_ 1 := andi main_v3 main_v7
  let main_v9 : FVec F S11008 .f32 := Host.absf main_arg3
  let main_cst_2 : FVec F S_ .f32 := constant S_ .f32 0x7F800000#32
  let main_v10 : FVec F S11008 .f32 := broadcastInDim S11008 ![] bcast_S_S11008 main_cst_2
  let main_v11 : IVec S11008 1 := cmpf .olt main_v9 main_v10
  let main_c_3 : IVec S_ 1 := constantI S_ 1 1#1
  let main_v12 : IVec S_ 1 := (fun x v => Host.reduce IntOp.andi x v reducesTo_S11008_S_d0 h_S_) main_v11 main_c_3
  let main_v13 : IVec S_ 1 := andi main_v8 main_v12
  main_v13
-- ==== Kernel.lean ====
abbrev S4x2048x4096 : Shape := ⟨3, ![4, 2048, 4096]⟩
abbrev S11008x4096 : Shape := ⟨2, ![11008, 4096]⟩
abbrev S11008x1 : Shape := ⟨2, ![11008, 1]⟩
abbrev S11008 : Shape := ⟨1, ![11008]⟩
abbrev S8192x4096 : Shape := ⟨2, ![8192, 4096]⟩
abbrev S_ : Shape := ⟨0, ![]⟩
abbrev S11264x4096 : Shape := ⟨2, ![11264, 4096]⟩
abbrev S11264x1 : Shape := ⟨2, ![11264, 1]⟩
abbrev S11264 : Shape := ⟨1, ![11264]⟩
abbrev S1x11264 : Shape := ⟨2, ![1, 11264]⟩
abbrev S8192x11264 : Shape := ⟨2, ![8192, 11264]⟩
abbrev S512x1024 : Shape := ⟨2, ![512, 1024]⟩
abbrev S1024x1024 : Shape := ⟨2, ![1024, 1024]⟩
abbrev S1024x1 : Shape := ⟨2, ![1024, 1]⟩
abbrev S1x1024 : Shape := ⟨2, ![1, 1024]⟩
abbrev S4x2048x11264 : Shape := ⟨3, ![4, 2048, 11264]⟩
abbrev S4x2048x11008 : Shape := ⟨3, ![4, 2048, 11008]⟩

abbrev nBuf : Space → Nat
  | .hbm => 18
  | .vmem => 11
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008x1, .f32⟩
  | .hbm, ⟨3, _⟩ => ⟨S11008, .f32⟩
  | .hbm, ⟨4, _⟩ => ⟨S8192x4096, .f32⟩
  | .hbm, ⟨5, _⟩ => ⟨S_, .i32⟩
  | .hbm, ⟨6, _⟩ => ⟨S_, .i32⟩
  | .hbm, ⟨7, _⟩ => ⟨S11264x4096, .i32⟩
  | .hbm, ⟨8, _⟩ => ⟨S_, .i32⟩
  | .hbm, ⟨9, _⟩ => ⟨S_, .f32⟩
  | .hbm, ⟨10, _⟩ => ⟨S11264x1, .f32⟩
  | .hbm, ⟨11, _⟩ => ⟨S_, .i32⟩
  | .hbm, ⟨12, _⟩ => ⟨S_, .f32⟩
  | .hbm, ⟨13, _⟩ => ⟨S11264, .f32⟩
  | .hbm, ⟨14, _⟩ => ⟨S1x11264, .f32⟩
  | .hbm, ⟨15, _⟩ => ⟨S8192x11264, .f32⟩
  | .hbm, ⟨16, _⟩ => ⟨S4x2048x11264, .f32⟩
  | .hbm, ⟨17, _⟩ => ⟨S4x2048x11008, .f32⟩
  | .local _ .vmem, ⟨0, _⟩ => ⟨S512x1024, .f32⟩
  | .local _ .vmem, ⟨1, _⟩ => ⟨S512x1024, .f32⟩
  | .local _ .vmem, ⟨2, _⟩ => ⟨S1024x1024, .i32⟩
  | .local _ .vmem, ⟨3, _⟩ => ⟨S1024x1024, .i32⟩
  | .local _ .vmem, ⟨4, _⟩ => ⟨S1024x1, .f32⟩
  | .local _ .vmem, ⟨5, _⟩ => ⟨S1024x1, .f32⟩
  | .local _ .vmem, ⟨6, _⟩ => ⟨S1x1024, .f32⟩
  | .local _ .vmem, ⟨7, _⟩ => ⟨S1x1024, .f32⟩
  | .local _ .vmem, ⟨8, _⟩ => ⟨S512x1024, .f32⟩
  | .local _ .vmem, ⟨9, _⟩ => ⟨S512x1024, .f32⟩
  | .local _ .vmem, ⟨10, _⟩ => ⟨S512x1024, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_c : Ref sig .tc := ⟨.hbm, 5, rfl⟩
abbrev main_call0_v0 : Ref sig .tc := ⟨.hbm, 6, rfl⟩
abbrev main_v1 : Ref sig .tc := ⟨.hbm, 7, rfl⟩
abbrev main_c_0 : Ref sig .tc := ⟨.hbm, 8, rfl⟩
abbrev main_call1_v0 : Ref sig .tc := ⟨.hbm, 9, rfl⟩
abbrev main_v2 : Ref sig .tc := ⟨.hbm, 10, rfl⟩
abbrev main_c_1 : Ref sig .tc := ⟨.hbm, 11, rfl⟩
abbrev main_call2_v0 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 11, 4], ![false, false, false]⟩

def k0_cond2 (i : grid0.Coords) : BitVec 1 :=
  let arg2 : BitVec 32 := BitVec.ofNat 32 (i 2).val
  let c3_i32 : BitVec 32 := 3#32
  let v21 : BitVec 1 := Scalar.cmpi .eq arg2 c3_i32
  let v22 : BitVec 32 := Scalar.extui v21
  let c0_i32_10 : BitVec 32 := 0#32
  let v23 : BitVec 1 := Scalar.cmpi .ne v22 c0_i32_10
  v23

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg1.toNat, c0_i32.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

class Facts₀ : Prop where
  shapeCasts_S4x2048x4096_S8192x4096 : S4x2048x4096.ShapeCasts S8192x4096
  pads_S11008x4096_S11264x4096_02560_000 : S11008x4096.Pads (![0, 0] : Fin 2 → Nat) ![256, 0] ![0, 0] S11264x4096
  h_S_ : 0 < S_.numel
  pads_S11008x1_S11264x1_02560_000 : S11008x1.Pads (![0, 0] : Fin 2 → Nat) ![256, 0] ![0, 0] S11264x1
  pads_S11008_S11264_02560 : S11008.Pads (![0] : Fin 1 → Nat) ![256] ![0] S11264
  shapeCasts_S11264_S1x11264 : S11264.ShapeCasts S1x11264
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  broadcasts_S1024x1_S1024x1024 : S1024x1.Broadcasts S1024x1024
  transposes_S1024x1024_p1_0_S1024x1024 : S1024x1024.Transposes [1, 0] S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S8192x11264_S4x2048x11264 : S8192x11264.ShapeCasts S4x2048x11264
  slices_S4x2048x11264_S4x2048x11008_0_0_0 : S4x2048x11264.Slices ![0, 0, 0] S4x2048x11008
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x4096.size a
  hwx0_0 : ∀ i : grid0.Coords, EltTy.bits .f32 = 32 ∨ (Rect.block (s := S8192x4096) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S11264x4096.size a
  hwx0_1 : ∀ i : grid0.Coords, EltTy.bits .i32 = 32 ∨ (Rect.block (s := S11264x4096) S1024x1024.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1024x1.size a ≤ S11264x1.size a
  hwx0_2 : ∀ i : grid0.Coords, EltTy.bits .f32 = 32 ∨ (Rect.block (s := S11264x1) S1024x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x11264.size a
  hwx0_3 : ∀ i : grid0.Coords, EltTy.bits .f32 = 32 ∨ (Rect.block (s := S1x11264) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x11264.size a
  hwx0_4 : ∀ i : grid0.Coords, EltTy.bits .f32 = 32 ∨ (Rect.block (s := S8192x11264) S512x1024.size (cc0_transform_4 i) (hinb0_4 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1024x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1x1024.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v5) S512x1024.size cc0_transform_4 reads0_4 true false 2 stage0_4 sem0_4
    hrank0 hreads0_4 hinb0_4 nbuf0_4 (Memref.isWhole_whole _) hwx0_4 hstage0_4

abbrev win0 : Fin 5 → Pipeline.Window sig grid0 := fun | 0 => win0_0 | 1 => win0_1 | 2 => win0_2 | 3 => win0_3 | 4 => win0_4 | ⟨_ + 5, h⟩ => absurd h (Nat.not_lt.2 (Nat.le_add_left _ _))
abbrev spec0 : Fin 5 → Pipeline.WinSpec sig grid0.rank := fun w => (win0 w).toWinSpec

abbrev idle0 : Fin 5 → grid0.Coords → Bool := fun | 0 => fun _ => false | 1 => fun _ => false | 2 => fun _ => false | 3 => fun _ => false | 4 => fun i => !(k0_cond2 i == 1#1) | ⟨_ + 5, h⟩ => absurd h (Nat.not_lt.2 (Nat.le_add_left _ _))

class Facts : Prop extends Facts₀ where

variable [Facts]
-- ==== ReferenceIdeal.lean ====
abbrev S4x2048x4096 : Shape := ⟨3, ![4, 2048, 4096]⟩
abbrev S11008x4096 : Shape := ⟨2, ![11008, 4096]⟩
abbrev S11008x1 : Shape := ⟨2, ![11008, 1]⟩
abbrev S11008 : Shape := ⟨1, ![11008]⟩
abbrev S4x2048x11008 : Shape := ⟨3, ![4, 2048, 11008]⟩
abbrev S1x1x11008 : Shape := ⟨3, ![1, 1, 11008]⟩

abbrev nBuf : Space → Nat
  | .hbm => 11
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S11008x4096, .i32⟩
  | .hbm, ⟨2, _⟩ => ⟨S11008x1, .f32⟩
  | .hbm, ⟨3, _⟩ => ⟨S11008, .f32⟩
  | .hbm, ⟨4, _⟩ => ⟨S11008x4096, .f32⟩
  | .hbm, ⟨5, _⟩ => ⟨S11008x4096, .f32⟩
  | .hbm, ⟨6, _⟩ => ⟨S11008x4096, .f32⟩
  | .hbm, ⟨7, _⟩ => ⟨S4x2048x11008, .f32⟩
  | .hbm, ⟨8, _⟩ => ⟨S1x1x11008, .f32⟩
  | .hbm, ⟨9, _⟩ => ⟨S4x2048x11008, .f32⟩
  | .hbm, ⟨10, _⟩ => ⟨S4x2048x11008, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩

abbrev nD : Nat := 1
abbrev τ : Topo := Topo.v7x

variable {F : FTy → Type} [FloatOps F]

class Facts₀ : Prop where
  bcast_S11008x1_S11008x4096_0_1 : S11008x1.BroadcastsInDim S11008x4096 (![0, 1] : Fin 2 → Fin S11008x4096.rank)
  bcast_S11008_S1x1x11008_2 : S11008.BroadcastsInDim S1x1x11008 (![2] : Fin 1 → Fin S1x1x11008.rank)
  bcast_S1x1x11008_S4x2048x11008_0_1_2 : S1x1x11008.BroadcastsInDim S4x2048x11008 (![0, 1, 2] : Fin 3 → Fin S4x2048x11008.rank)
  dot_S4x2048x4096_S11008x4096_S4x2048x11008_2_1_01_0_n_n_wf : DotDims.WF S4x2048x4096 S11008x4096 S4x2048x11008 [2] [1] [0, 1] [0] [] []

variable [Facts₀]

def dot_S4x2048x4096_S11008x4096_S4x2048x11008_2_1_01_0_n_n : DotDims S4x2048x4096 S11008x4096 S4x2048x11008 where
  lhsContracting := [2]
  rhsContracting := [1]
  lhsNonContracting := [0, 1]
  rhsNonContracting := [0]
  lhsBatch := []
  rhsBatch := []
  wf := dot_S4x2048x4096_S11008x4096_S4x2048x11008_2_1_01_0_n_n_wf

class Facts : Prop extends Facts₀ where

variable [Facts]
-- ==== Proof.BlockSum.lean ====
/-
  Splitting a sum over 4096 columns into four consecutive blocks of 1024, in any commutative monoid:
  the blocks added first to last onto zero give the whole sum. Only associativity, commutativity and
  the neutral zero are used, so the law holds on the extended reals with no finiteness assumption.
-/
import Idealize.ShloMosaic.Lib.ValueIdx

namespace Cert.BlockSum

/-- Column `i` of block `a`: the column `1024 * a + i` of the 4096. -/
def col (a : Fin 4) (i : Fin 1024) : Fin 4096 :=
  ⟨1024 * a.val + i.val, by have := a.isLt; have := i.isLt; omega⟩

theorem col_val (a : Fin 4) (i : Fin 1024) : (col a i).val = 1024 * a.val + i.val := rfl

/-- A column is a block number and a position inside the block. -/
def colEquiv : Fin 4 × Fin 1024 ≃ Fin 4096 where
  toFun p := col p.1 p.2
  invFun k := (⟨k.val / 1024, by have := k.isLt; omega⟩, ⟨k.val % 1024, by omega⟩)
  left_inv p := by
    obtain ⟨a, i⟩ := p
    have ha := a.isLt
    have hi := i.isLt
    refine Prod.ext (Fin.ext ?_) (Fin.ext ?_)
    · show (1024 * a.val + i.val) / 1024 = a.val
      omega
    · show (1024 * a.val + i.val) % 1024 = i.val
      omega
  right_inv k := by
    refine Fin.ext ?_
    show 1024 * (k.val / 1024) + k.val % 1024 = k.val
    omega

/-- The four block sums, added in order onto zero, are the sum over all 4096 columns. -/
theorem sum_blocks {M : Type*} [AddCommMonoid M] (f : Fin 4096 → M) :
    (((0 + ∑ i : Fin 1024, f (col 0 i)) + ∑ i : Fin 1024, f (col 1 i)) + ∑ i : Fin 1024, f (col 2 i))
      + ∑ i : Fin 1024, f (col 3 i) = ∑ k : Fin 4096, f k := by
  rw [← Equiv.sum_comp colEquiv f, Fintype.sum_prod_type, Fin.sum_univ_four, zero_add]
  rfl

end Cert.BlockSum
-- ==== Proof.Pieces.lean ====
/-
  What each control case of the kernel body leaves behind, as a pure function of the blocks it loaded.

  The body keeps a running accumulator in a scratch block across the four steps of the contraction axis:
  at the first step it stores zero and then adds that step's partial product; at the middle steps it adds the
  step's partial product to what the step before left; at the last step it does the same and also emits the
  accumulator plus the bias row into the output block. Here each of these is read back from the stores the
  symbolic run found: the accumulator after a step is `update` of the step's blocks and the accumulator before,
  and the emitted block is `emit` of the new accumulator and the bias row.
-/
import proofs.«157685_j70385924047666_1_alg».proof.Proof.Gen.KernelIdeal.Frame
import Idealize.ShloMosaic.Lib.Pipeline.Value
import Idealize.ShloMosaic.Lib.Tactic

set_option maxRecDepth 16384

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz : (![0, 0] : Fin 2 → Nat) = fun _ => 0 := funext fun a => by fin_cases a <;> rfl

/-- The accumulator after one step: the step's partial product added to the accumulator before. -/
abbrev update (x : Vec F S512x1024 .f32) (w : Vec F S1024x1024 .i32) (s : Vec F S1024x1 .f32)
    (acc : Vec F S512x1024 .f32) : Vec F S512x1024 .f32 := k0_pay2 x w s acc

/-- The zero block the first step starts from. -/
abbrev zero : Vec F S512x1024 .f32 := k0_pay1 (F := F)

/-- The emitted block: the accumulator plus the bias row on every row. -/
abbrev emit (acc : Vec F S512x1024 .f32) (b : Vec F S1x1024 .f32) : Vec F S512x1024 .f32 := k0_pay3 acc b

/-- First step: the accumulator is reset to zero and then updated. -/
theorem acc_first (c : Dev nD) (i : grid0.Coords) (a3 : Memref sig .tc .vmem S512x1024 .f32) (h3 : a3.IsWhole) (a4 : Memref sig .tc .vmem S1024x1024 .i32) (h4 : a4.IsWhole) (a5 : Memref sig .tc .vmem S1024x1 .f32) (h5 : a5.IsWhole) (a6 : Memref sig .tc .vmem S1x1024 .f32) (h6 : a6.IsWhole) (a7 : Memref sig .tc .vmem S512x1024 .f32) (h7 : a7.IsWhole) (a8 : Memref sig .tc .vmem S512x1024 .f32) (h8 : a8.IsWhole) (hc0 : cond0_0 i) (hc1 : ¬cond0_1 i)
    (x0 : Vec F S512x1024 .f32) (x1 : Vec F S1024x1024 .i32) (x2 : Vec F S1024x1 .f32) (x3 : Vec F S1x1024 .f32) :
    sout0_A_0 c i a3 h3 a4 h4 a5 h5 a6 h6 a7 h7 a8 h8 hc0 hc1 x0 x1 x2 x3 = update x0 x1 x2 (zero (F := F)) := by
  unfold sout0_A_0
  rw [View.read_writes_eq_canon _ _ _ (scover0_A_0 c i a3 h3 a4 h4 a5 h5 a6 h6 a7 h7 a8 h8 hc0 hc1 x0 x1 x2 x3)]
  unfold kernelRun0_A
  dsimp only
  sl_unfold_words
  rw [View.canon_cons_unit_zero (S := S512x1024) hz, View.readCov_unit_zero (S := S512x1024) _ hz]
  simp only [View.readAt_eq_ld, h3.read_unread, h4.read_unread, h5.read_unread, View.ld_unit_zero (S := S512x1024) hz,
    View.ld_unit_zero (S := S1024x1024) hz, View.ld_unit_zero (S := S1024x1) hz]

/-- Middle steps: the accumulator the step before left is updated. -/
theorem acc_middle (c : Dev nD) (i : grid0.Coords) (a3 : Memref sig .tc .vmem S512x1024 .f32) (h3 : a3.IsWhole) (a4 : Memref sig .tc .vmem S1024x1024 .i32) (h4 : a4.IsWhole) (a5 : Memref sig .tc .vmem S1024x1 .f32) (h5 : a5.IsWhole) (a6 : Memref sig .tc .vmem S1x1024 .f32) (h6 : a6.IsWhole) (a7 : Memref sig .tc .vmem S512x1024 .f32) (h7 : a7.IsWhole) (a8 : Memref sig .tc .vmem S512x1024 .f32) (h8 : a8.IsWhole) (hc0 : ¬cond0_0 i) (hc1 : ¬cond0_1 i)
    (x0 : Vec F S512x1024 .f32) (x1 : Vec F S1024x1024 .i32) (x2 : Vec F S1024x1 .f32) (x3 : Vec F S1x1024 .f32) (xs0 : Vec F S512x1024 .f32) :
    sout0_B_0 c i a3 h3 a4 h4 a5 h5 a6 h6 a7 h7 a8 h8 hc0 hc1 x0 x1 x2 x3 xs0 = update x0 x1 x2 xs0 := by
  unfold sout0_B_0
  rw [View.read_writes_eq_canon _ _ _ (scover0_B_0 c i a3 h3 a4 h4 a5 h5 a6 h6 a7 h7 a8 h8 hc0 hc1 x0 x1 x2 x3 xs0)]
  unfold kernelRun0_B
  dsimp only
  sl_unfold_words
  rw [View.canon_unit_zero hz]
  simp only [View.readAt_eq_ld, h3.read_unread, h4.read_unread, h5.read_unread, h8.read_unread, View.ld_unit_zero (S := S512x1024) hz,
    View.ld_unit_zero (S := S1024x1024) hz, View.ld_unit_zero (S := S1024x1) hz]

/-- Last step: the accumulator is updated once more, -/
theorem acc_last (c : Dev nD) (i : grid0.Coords) (a3 : Memref sig .tc .vmem S512x1024 .f32) (h3 : a3.IsWhole) (a4 : Memref sig .tc .vmem S1024x1024 .i32) (h4 : a4.IsWhole) (a5 : Memref sig .tc .vmem S1024x1 .f32) (h5 : a5.IsWhole) (a6 : Memref sig .tc .vmem S1x1024 .f32) (h6 : a6.IsWhole) (a7 : Memref sig .tc .vmem S512x1024 .f32) (h7 : a7.IsWhole) (a8 : Memref sig .tc .vmem S512x1024 .f32) (h8 : a8.IsWhole) (hc0 : ¬cond0_0 i) (hc1 : cond0_1 i)
    (x0 : Vec F S512x1024 .f32) (x1 : Vec F S1024x1024 .i32) (x2 : Vec F S1024x1 .f32) (x3 : Vec F S1x1024 .f32) (xs0 : Vec F S512x1024 .f32) :
    sout0_C_0 c i a3 h3 a4 h4 a5 h5 a6 h6 a7 h7 a8 h8 hc0 hc1 x0 x1 x2 x3 xs0 = update x0 x1 x2 xs0 := by
  unfold sout0_C_0
  rw [View.read_writes_eq_canon _ _ _ (scover0_C_0 c i a3 h3 a4 h4 a5 h5 a6 h6 a7 h7 a8 h8 hc0 hc1 x0 x1 x2 x3 xs0)]
  unfold kernelRun0_C
  dsimp only
  sl_unfold_words
  rw [View.canon_unit_zero hz]
  simp only [View.readAt_eq_ld, h3.read_unread, h4.read_unread, h5.read_unread, h8.read_unread, View.ld_unit_zero (S := S512x1024) hz,
    View.ld_unit_zero (S := S1024x1024) hz, View.ld_unit_zero (S := S1024x1) hz]

/-- and the output block is the new accumulator plus the bias row. -/
theorem out_last (c : Dev nD) (i : grid0.Coords) (a3 : Memref sig .tc .vmem S512x1024 .f32) (h3 : a3.IsWhole) (a4 : Memref sig .tc .vmem S1024x1024 .i32) (h4 : a4.IsWhole) (a5 : Memref sig .tc .vmem S1024x1 .f32) (h5 : a5.IsWhole) (a6 : Memref sig .tc .vmem S1x1024 .f32) (h6 : a6.IsWhole) (a7 : Memref sig .tc .vmem S512x1024 .f32) (h7 : a7.IsWhole) (a8 : Memref sig .tc .vmem S512x1024 .f32) (h8 : a8.IsWhole) (hc0 : ¬cond0_0 i) (hc1 : cond0_1 i)
    (x0 : Vec F S512x1024 .f32) (x1 : Vec F S1024x1024 .i32) (x2 : Vec F S1024x1 .f32) (x3 : Vec F S1x1024 .f32) (xs0 : Vec F S512x1024 .f32) :
    out0_C_4 c i a3 h3 a4 h4 a5 h5 a6 h6 a7 h7 a8 h8 hc0 hc1 x0 x1 x2 x3 xs0 = emit (update x0 x1 x2 xs0) x3 := by
  unfold out0_C_4
  rw [View.read_writes_eq_canon _ _ _ (cover0_C_4 c i a3 h3 a4 h4 a5 h5 a6 h6 a7 h7 a8 h8 hc0 hc1 x0 x1 x2 x3 xs0)]
  unfold kernelRun0_C
  dsimp only
  sl_unfold_words
  rw [View.canon_unit_zero hz]
  simp only [View.readAt_eq_ld, h3.read_unread, h4.read_unread, h5.read_unread, h6.read_unread, h8.read_unread,
    View.ld_unit_zero (S := S512x1024) hz, View.ld_unit_zero (S := S1024x1024) hz, View.ld_unit_zero (S := S1024x1) hz,
    View.ld_unit_zero (S := S1x1024) hz, View.readCov_unit_zero (S := S512x1024) _ hz]

end Cert.KernelIdeal.Pieces

end
-- ==== Proof.PayIdeal.lean ====
/-
  The three stored values of the kernel body read entry by entry, over the extended reals.

  At the ideal instance a change of float format is the identity and the matrix unit's product is the plain sum
  over the contracted axis. So one step's update of the accumulator at row `p`, column `q` adds
  `∑ k, x[p, k] · (float(w[q, k]) · s[q, 0])`: the activation block times the TRANSPOSE of the dequantized weight
  block (the kernel transposes the weight block before the product, so column `q` of the product reads row `q`
  of the weights). The emitted entry adds the bias row's entry `q`; the reset entry is zero.
-/
import proofs.«157685_j70385924047666_1_alg».proof.Proof.Pieces
import Idealize.ShloMosaic.Lib.ValueIdx
import Idealize.ShloMosaic.Lib.ValueLayout
import Idealize.ShloMosaic.PureOps.Ideal.Laws

noncomputable section

open Idealize.ShloMosaic Idealize.ShloMosaic.TcCoe Idealize.SL.Sem Idealize.ShloMosaic.ValueIdx

namespace Cert.KernelIdeal.PayIdeal

open Cert.KernelIdeal Cert.KernelIdeal.Gen Cert.KernelIdeal.Pieces

/-! ## The product's operand indices, axis by axis -/

theorem lhs_row (j : S512x1024.Idx) (q : dot_S512x1024_S1024x1024_S512x1024_1_0_0_1_n_n.contr.Idx) :
    (dot_S512x1024_S1024x1024_S512x1024_1_0_0_1_n_n.lhsIdx j q 0).val = (j 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_col (j : S512x1024.Idx) (q : dot_S512x1024_S1024x1024_S512x1024_1_0_0_1_n_n.contr.Idx) :
    (dot_S512x1024_S1024x1024_S512x1024_1_0_0_1_n_n.lhsIdx j q 1).val = (q ⟨0, by decide⟩).val :=
  dot_S512x1024_S1024x1024_S512x1024_1_0_0_1_n_n.lhsIdx_val_of_single rfl j q
theorem rhs_row (j : S512x1024.Idx) (q : dot_S512x1024_S1024x1024_S512x1024_1_0_0_1_n_n.contr.Idx) :
    (dot_S512x1024_S1024x1024_S512x1024_1_0_0_1_n_n.rhsIdx j q 0).val = (q ⟨0, by decide⟩).val :=
  dot_S512x1024_S1024x1024_S512x1024_1_0_0_1_n_n.rhsIdx_val_of_single rfl j q
theorem rhs_col (j : S512x1024.Idx) (q : dot_S512x1024_S1024x1024_S512x1024_1_0_0_1_n_n.contr.Idx) :
    (dot_S512x1024_S1024x1024_S512x1024_1_0_0_1_n_n.rhsIdx j q 1).val = (j 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The product into a zero accumulator, at row `p` and column `q`: the sum over the 1024 contracted positions. -/
theorem product_apply (l : FVec Ideal S512x1024 .bf16) (r : FVec Ideal S1024x1024 .bf16) (p : Fin 512) (q : Fin 1024) :
    matmul dot_S512x1024_S1024x1024_S512x1024_1_0_0_1_n_n none l r (constant (F := Ideal) S512x1024 .f32 0x00000000#32) (ix2 p q)
      = ∑ k : Fin 1024, l (ix2 p k) * r (ix2 k q) := by
  simp only [matmul]
  rw [Ideal.matmul_constant_zero_apply, ← Equiv.sum_comp (contrEquiv1 dot_S512x1024_S1024x1024_S512x1024_1_0_0_1_n_n 1024 rfl rfl).symm]
  refine Finset.sum_congr rfl fun k _ => ?_
  have hk := contrEquiv1_symm_val dot_S512x1024_S1024x1024_S512x1024_1_0_0_1_n_n 1024 rfl rfl k
  have el : dot_S512x1024_S1024x1024_S512x1024_1_0_0_1_n_n.lhsIdx (ix2 p q) ((contrEquiv1 dot_S512x1024_S1024x1024_S512x1024_1_0_0_1_n_n 1024 rfl rfl).symm k) = ix2 p k := funext fun a => Fin.ext (by
    match a with
    | ⟨0, _⟩ => exact lhs_row _ _
    | ⟨1, _⟩ => exact (lhs_col _ _).trans hk)
  have er : dot_S512x1024_S1024x1024_S512x1024_1_0_0_1_n_n.rhsIdx (ix2 p q) ((contrEquiv1 dot_S512x1024_S1024x1024_S512x1024_1_0_0_1_n_n 1024 rfl rfl).symm k) = ix2 k q := funext fun a => Fin.ext (by
    match a with
    | ⟨0, _⟩ => exact (rhs_row _ _).trans hk
    | ⟨1, _⟩ => exact rhs_col _ _)
  rw [el, er]

/-- A column of per-row scales broadcast along the rows of a square block reads, at `(q, k)`, the scale of row `q`. -/
theorem scale_col_apply {α : Type} (v : S1024x1.Idx → α) (q k : Fin 1024) :
    broadcastTo S1024x1024 v broadcasts_S1024x1_S1024x1024 (ix2 q k) = v (ix2 q (0 : Fin 1)) :=
  broadcastTo_apply v broadcasts_S1024x1_S1024x1024 (ix2 q k) (ix2 q (0 : Fin 1)) fun a => match a with
    | ⟨0, _⟩ => by show q.val = if (1024 : Nat) = 1 then 0 else q.val; rw [if_neg (by decide)]
    | ⟨1, _⟩ => by show 0 = if (1 : Nat) = 1 then 0 else k.val; rw [if_pos rfl]

/-- One step's update, entry by entry. -/
theorem update_apply (x : Vec Ideal S512x1024 .f32) (w : Vec Ideal S1024x1024 .i32) (s : Vec Ideal S1024x1 .f32)
    (acc : Vec Ideal S512x1024 .f32) (p : Fin 512) (q : Fin 1024) :
    update (F := Ideal) x w s acc (ix2 p q)
      = acc (ix2 p q) + ∑ k : Fin 1024, x (ix2 p k) * (FloatOps.sitofp (F := Ideal) .f32 (w (ix2 q k)) * s (ix2 q (0 : Fin 1))) := by
  unfold update k0_pay2
  simp only [shapeCast_self]
  refine (addf_apply _ _ _).trans ?_
  refine congrArg (acc (ix2 p q) + ·) ?_
  refine (product_apply _ _ p q).trans ?_
  refine Finset.sum_congr rfl fun k _ => ?_
  refine congrArg (x (ix2 p k) * ·) ?_
  refine (transpose_ix2_apply _ _ k q).trans ?_
  show FloatOps.sitofp (F := Ideal) .f32 (w (ix2 q k)) * broadcastTo S1024x1024 s broadcasts_S1024x1_S1024x1024 (ix2 q k) = _
  rw [scale_col_apply]

/-- The emitted block, entry by entry: the accumulator plus the bias of the column. -/
theorem emit_apply (acc : Vec Ideal S512x1024 .f32) (b : Vec Ideal S1x1024 .f32) (p : Fin 512) (q : Fin 1024) :
    emit (F := Ideal) acc b (ix2 p q) = acc (ix2 p q) + b (ix2 (0 : Fin 1) q) := by
  unfold emit k0_pay3
  simp only [shapeCast_self]
  refine (addf_apply _ _ _).trans ?_
  refine congrArg (acc (ix2 p q) + ·) ?_
  exact broadcastTo_1b_ab_apply b broadcasts_S1x1024_S512x1024 p q

/-- The reset block is zero everywhere. -/
theorem zero_apply (j : S512x1024.Idx) : zero (F := Ideal) j = 0 := by
  unfold zero k0_pay1
  simp only [shapeCast_self]
  exact Ideal.ofBits_zero_f32

end Cert.KernelIdeal.PayIdeal

end
-- ==== Proof.Acc.lean ====
/-
  The output block a write-back point flushes, as a function of the twelve input blocks of its four steps.

  The grid runs the contraction axis innermost, so a point whose number is 3 modulo 4 is the last of four
  consecutive steps for one output block: the point three before it resets the accumulator and adds the first
  partial product, the next two add theirs, and the point itself adds the fourth and emits accumulator plus bias.
-/
import proofs.«157685_j70385924047666_1_alg».proof.Proof.Pieces

set_option maxRecDepth 16384

noncomputable section

open Idealize.ShloMosaic Idealize.ShloMosaic.TcCoe Idealize.SL.Sem

namespace Cert.KernelIdeal.Acc

open Cert.KernelIdeal Cert.KernelIdeal.Gen Cert.KernelIdeal.Pieces

variable {F : FTy → Type} [FloatOps F]
variable (m : (ℓ : Loc nD τ sig) → Buf (Elt F) ℓ)

/-- The four input blocks of a grid point, at their literal shapes: activations, integer weights, per-row scale, bias row. -/
abbrev xb (c : Dev nD) (t : Fin cfg0.N) : Vec F S512x1024 .f32 := iblk m c 0 t
abbrev wb (c : Dev nD) (t : Fin cfg0.N) : Vec F S1024x1024 .i32 := iblk m c 1 t
abbrev sb (c : Dev nD) (t : Fin cfg0.N) : Vec F S1024x1 .f32 := iblk m c 2 t
abbrev bb (c : Dev nD) (t : Fin cfg0.N) : Vec F S1x1024 .f32 := iblk m c 3 t

/-- The grid point before `t` (point 0 is its own predecessor; never used there). -/
def prev (t : Fin cfg0.N) : Fin cfg0.N := ⟨t.val - 1, Nat.lt_of_le_of_lt (Nat.sub_le _ _) t.isLt⟩

theorem prev_val (t : Fin cfg0.N) : (prev t).val = t.val - 1 := rfl

/-- The accumulator after a first step. -/
theorem scr_first (c : Dev nD) (t : Fin cfg0.N) (h0 : t.val % 4 = 0) :
    (outsAt0 m c t.val t.isLt).2 = update (xb m c t) (wb m c t) (sb m c t) (zero (F := F)) := by
  have h1 : ¬t.val % 4 = 3 := by omega
  rw [outsAt0_A m c t h0 h1]
  dsimp only
  exact acc_first c (grid0.coords t) (ms0_0 t) (hs0_0 t) (ms0_1 t) (hs0_1 t) (ms0_2 t) (hs0_2 t) (ms0_3 t) (hs0_3 t) (ms0_4 t) (hs0_4 t) scM0_0 (Memref.isWhole_whole _) ((hcond0_0 t).mpr h0) (fun h => h1 ((hcond0_1 t).mp h))
    (iblk m c 0 t) (iblk m c 1 t) (iblk m c 2 t) (iblk m c 3 t)

/-- The accumulator after a middle step, over what the point before left. -/
theorem scr_middle (c : Dev nD) (t : Fin cfg0.N) (h0 : ¬t.val % 4 = 0) (h1 : ¬t.val % 4 = 3) :
    (outsAt0 m c t.val t.isLt).2
      = update (xb m c t) (wb m c t) (sb m c t) (outsAt0 m c (prev t).val (prev t).isLt).2 := by
  rw [outsAt0_B m c t h0 h1]
  dsimp only
  exact acc_middle c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) (fun h => h1 ((hcond0_1 t).mp h))
    (iblk m c 0 t) (iblk m c 1 t) (iblk m c 2 t) (iblk m c 3 t) (outsAt0 m c (t.val - 1) (Nat.lt_of_le_of_lt (Nat.sub_le _ _) t.isLt)).2

/-- The output block after a last step, over what the point before left. -/
theorem out_last_step (c : Dev nD) (t : Fin cfg0.N) (h1 : t.val % 4 = 3) :
    (outsAt0 m c t.val t.isLt).1
      = emit (update (xb m c t) (wb m c t) (sb m c t) (outsAt0 m c (prev t).val (prev t).isLt).2) (bb m c t) := by
  have h0 : ¬t.val % 4 = 0 := by omega
  rw [outsAt0_C m c t h0 h1]
  dsimp only
  exact out_last c (grid0.coords t) (ms0_0 t) (hs0_0 t) (ms0_1 t) (hs0_1 t) (ms0_2 t) (hs0_2 t) (ms0_3 t) (hs0_3 t) (ms0_4 t) (hs0_4 t) scM0_0 (Memref.isWhole_whole _) (fun h => h0 ((hcond0_0 t).mp h)) ((hcond0_1 t).mpr h1)
    (iblk m c 0 t) (iblk m c 1 t) (iblk m c 2 t) (iblk m c 3 t) (outsAt0 m c (t.val - 1) (Nat.lt_of_le_of_lt (Nat.sub_le _ _) t.isLt)).2

/-- THE FOUR STEPS. At a write-back point the output block is the bias row added to the four partial products
    accumulated, first to last, onto zero. -/
theorem out_at_flush (c : Dev nD) (t : Fin cfg0.N) (h3 : t.val % 4 = 3) :
    (outsAt0 m c t.val t.isLt).1
      = emit (update (xb m c t) (wb m c t) (sb m c t)
          (update (xb m c (prev t)) (wb m c (prev t)) (sb m c (prev t))
            (update (xb m c (prev (prev t))) (wb m c (prev (prev t))) (sb m c (prev (prev t)))
              (update (xb m c (prev (prev (prev t)))) (wb m c (prev (prev (prev t)))) (sb m c (prev (prev (prev t))))
                (zero (F := F)))))) (bb m c t) := by
  have e1 : (prev t).val % 4 = 2 := by rw [prev_val]; omega
  have e2 : (prev (prev t)).val % 4 = 1 := by rw [prev_val, prev_val]; omega
  have e3 : (prev (prev (prev t))).val % 4 = 0 := by rw [prev_val, prev_val, prev_val]; omega
  rw [out_last_step m c t h3, scr_middle m c (prev t) (by omega) (by omega),
    scr_middle m c (prev (prev t)) (by omega) (by omega), scr_first m c (prev (prev (prev t))) e3]

end Cert.KernelIdeal.Acc

end
-- ==== Proof.Entry.lean ====
/-
  What the region finds in its four input arrays, and what each grid point's blocks read of them.

  Before the region the host flattens the activations `[4, 2048, 4096] → [8192, 4096]` (row `2048·b + s`),
  pads the weights, the scales and the bias with 256 trailing zero rows (11008 → 11264), and views the padded bias
  as one row. Below row 11008 a padded array is the argument itself. Grid point `t` is output row block
  `t / 44`, output column block `(t / 4) % 11` and contraction step `t % 4`; its blocks are read at
  `index · size + position` on each axis.
-/
import proofs.«157685_j70385924047666_1_alg».proof.Proof.Acc
import Idealize.ShloMosaic.Lib.ValueIdx
import Idealize.ShloMosaic.Lib.ValueLayout
import Idealize.ShloMosaic.Lib.KernelVsHost
import Idealize.ShloMosaic.Lib.StableHlo.Run

set_option maxRecDepth 16384

noncomputable section

open Idealize.ShloMosaic Idealize.ShloMosaic.TcCoe Idealize.SL.Sem Idealize.ShloMosaic.ValueIdx

namespace Cert.KernelIdeal.Entry

open Cert.KernelIdeal Cert.KernelIdeal.Gen

variable {F : FTy → Type} [FloatOps F]
variable (m : (ℓ : Loc nD τ sig) → Buf (Elt F) ℓ)

/-! ## The arrays at region entry -/

/-- The flattened activations. -/
theorem V_x (c : Dev nD) : (V m c main_v0 : S8192x4096.Idx → Elt F .f32)
    = shapeCast S8192x4096 (m ((c : Thread nD τ).loc main_arg0)) shapeCasts_S4x2048x4096_S8192x4096 := by
  dsimp only [V, V0]
  simp only [hostOps0, hostOps0_1, hostOps0_2, hostOps0_3, hostOps0_4, hostOps0_5, hostOps0_6, List.flatten_cons, List.flatten_nil,
    List.append_nil, List.cons_append, List.nil_append]
  after_results
  rfl

/-- The weights padded with zero rows. -/
theorem V_w (c : Dev nD) : (V m c main_v1 : S11264x4096.Idx → Elt F .i32)
    = pad S11264x4096 ![0, 0] ![256, 0] ![0, 0] (m ((c : Thread nD τ).loc main_arg1)) (id (constantI S_ 32 0#32))
        pads_S11008x4096_S11264x4096_02560_000 h_S_ := by
  dsimp only [V, V0]
  simp only [hostOps0, hostOps0_1, hostOps0_2, hostOps0_3, hostOps0_4, hostOps0_5, hostOps0_6, List.flatten_cons, List.flatten_nil,
    List.append_nil, List.cons_append, List.nil_append]
  after_results
  rfl

/-- The per-row scales padded with zero rows. -/
theorem V_s (c : Dev nD) : (V m c main_v2 : S11264x1.Idx → Elt F .f32)
    = pad S11264x1 ![0, 0] ![256, 0] ![0, 0] (m ((c : Thread nD τ).loc main_arg2)) (sitofp (F := F) .f32 (constantI S_ 32 0#32))
        pads_S11008x1_S11264x1_02560_000 h_S_ := by
  dsimp only [V, V0]
  simp only [hostOps0, hostOps0_1, hostOps0_2, hostOps0_3, hostOps0_4, hostOps0_5, hostOps0_6, List.flatten_cons, List.flatten_nil,
    List.append_nil, List.cons_append, List.nil_append]
  after_results
  rfl

/-- The bias padded with zeros, as one row. -/
theorem V_b (c : Dev nD) : (V m c main_v4 : S1x11264.Idx → Elt F .f32)
    = shapeCast S1x11264 (pad S11264 ![0] ![256] ![0] (m ((c : Thread nD τ).loc main_arg3)) (sitofp (F := F) .f32 (constantI S_ 32 0#32))
        pads_S11008_S11264_02560 h_S_) shapeCasts_S11264_S1x11264 := by
  dsimp only [V, V0]
  simp only [hostOps0, hostOps0_1, hostOps0_2, hostOps0_3, hostOps0_4, hostOps0_5, hostOps0_6, List.flatten_cons, List.flatten_nil,
    List.append_nil, List.cons_append, List.nil_append]
  after_results
  rfl

/-! ## The arrays at region entry, read at an index -/

/-- Row `2048·b + s` of the flattened activations is row `(b, s)` of the argument. -/
theorem x_apply (c : Dev nD) (b : Fin 4) (s : Fin 2048) (k : Fin 4096) (r : Fin 8192) (hr : r.val = 2048 * b.val + s.val) :
    (V m c main_v0 : S8192x4096.Idx → Elt F .f32) (ix2 r k) = m ((c : Thread nD τ).loc main_arg0) (ix3 b s k) := by
  rw [V_x]
  refine shapeCast_apply _ _ _ _ ?_
  show (S4x2048x4096.rowMajor (ix3 b s k)).val = (S8192x4096.rowMajor (ix2 r k)).val
  rw [Shape.rowMajor_val_three, Shape.rowMajor_val_two]
  show (b.val * 2048 + s.val) * 4096 + k.val = r.val * 4096 + k.val
  rw [hr]; omega

/-- Below row 11008 the padded weights are the weights. -/
theorem w_apply (c : Dev nD) (n : Fin 11264) (hn : n.val < 11008) (k : Fin 4096) :
    (V m c main_v1 : S11264x4096.Idx → Elt F .i32) (ix2 n k) = m ((c : Thread nD τ).loc main_arg1) (ix2 (⟨n.val, hn⟩ : Fin 11008) k) := by
  rw [V_w]
  refine pad_apply_of_inside _ _ _ _ _ _ _ (ix2 n k) (ix2 (⟨n.val, hn⟩ : Fin 11008) k) fun a => ?_
  match a with
  | ⟨0, _⟩ => show n.val = 0 + n.val * (0 + 1); omega
  | ⟨1, _⟩ => show k.val = 0 + k.val * (0 + 1); omega

/-- Below row 11008 the padded scales are the scales. -/
theorem s_apply (c : Dev nD) (n : Fin 11264) (hn : n.val < 11008) :
    (V m c main_v2 : S11264x1.Idx → Elt F .f32) (ix2 n (0 : Fin 1)) = m ((c : Thread nD τ).loc main_arg2) (ix2 (⟨n.val, hn⟩ : Fin 11008) (0 : Fin 1)) := by
  rw [V_s]
  refine pad_apply_of_inside _ _ _ _ _ _ _ (ix2 n (0 : Fin 1)) (ix2 (⟨n.val, hn⟩ : Fin 11008) (0 : Fin 1)) fun a => ?_
  match a with
  | ⟨0, _⟩ => show n.val = 0 + n.val * (0 + 1); omega
  | ⟨1, _⟩ => show 0 = 0 + 0 * (0 + 1); omega

/-- Below column 11008 the padded bias row is the bias. -/
theorem b_apply (c : Dev nD) (n : Fin 11264) (hn : n.val < 11008) :
    (V m c main_v4 : S1x11264.Idx → Elt F .f32) (ix2 (0 : Fin 1) n) = m ((c : Thread nD τ).loc main_arg3) (ix1 (⟨n.val, hn⟩ : Fin 11008)) := by
  rw [V_b]
  refine (shapeCast_a_1a_apply _ shapeCasts_S11264_S1x11264 (0 : Fin 1) n).trans ?_
  refine pad_apply_of_inside _ _ _ _ _ _ _ (ix1 n) (ix1 (⟨n.val, hn⟩ : Fin 11008)) fun a => ?_
  match a with
  | ⟨0, _⟩ => show n.val = 0 + n.val * (0 + 1); omega

/-! ## The blocks of a grid point -/

/-- Each window's block index at point `t`, decided once over the grid. -/
theorem idx_facts : ∀ t : Fin cfg0.N,
    win0_0.index t (0 : Fin 2) = t.val / 44 ∧ win0_0.index t (1 : Fin 2) = t.val % 4
    ∧ win0_1.index t (0 : Fin 2) = t.val / 4 % 11 ∧ win0_1.index t (1 : Fin 2) = t.val % 4
    ∧ win0_2.index t (0 : Fin 2) = t.val / 4 % 11 ∧ win0_2.index t (1 : Fin 2) = 0
    ∧ win0_3.index t (0 : Fin 2) = 0 ∧ win0_3.index t (1 : Fin 2) = t.val / 4 % 11
    ∧ win0_4.index t (0 : Fin 2) = t.val / 44 ∧ win0_4.index t (1 : Fin 2) = t.val / 4 % 11 :=
  (by decide +kernel : ∀ t : Fin grid0.N, _)

/-- The activation block of point `t` at `(p, k)`. -/
theorem xb_apply (c : Dev nD) (t : Fin cfg0.N) (p : Fin 512) (k : Fin 1024) (r : Fin 8192) (kk : Fin 4096)
    (hr : r.val = 512 * (t.val / 44) + p.val) (hk : kk.val = 1024 * (t.val % 4) + k.val) :
    Acc.xb m c t (ix2 p k) = (V m c main_v0 : S8192x4096.Idx → Elt F .f32) (ix2 r kk) := by
  show iblk m c 0 t (ix2 p k) = _
  unfold iblk
  rw [View.read_apply]
  show V m c main_v0 (((cfg0.win 0).blk t).view.emb (ix2 p k)) = V m c main_v0 (ix2 r kk)
  refine congrArg _ (funext fun a => Fin.ext ?_)
  match a with
  | ⟨0, _⟩ => show win0_0.index t 0 * 512 + 1 * p.val = r.val; rw [(idx_facts t).1]; omega
  | ⟨1, _⟩ => show win0_0.index t 1 * 1024 + 1 * k.val = kk.val; rw [(idx_facts t).2.1]; omega

/-- The weight block of point `t` at `(q, k)`. -/
theorem wb_apply (c : Dev nD) (t : Fin cfg0.N) (q : Fin 1024) (k : Fin 1024) (n : Fin 11264) (kk : Fin 4096)
    (hn : n.val = 1024 * (t.val / 4 % 11) + q.val) (hk : kk.val = 1024 * (t.val % 4) + k.val) :
    Acc.wb m c t (ix2 q k) = (V m c main_v1 : S11264x4096.Idx → Elt F .i32) (ix2 n kk) := by
  show iblk m c 1 t (ix2 q k) = _
  unfold iblk
  rw [View.read_apply]
  show V m c main_v1 (((cfg0.win 1).blk t).view.emb (ix2 q k)) = V m c main_v1 (ix2 n kk)
  refine congrArg _ (funext fun a => Fin.ext ?_)
  match a with
  | ⟨0, _⟩ => show win0_1.index t 0 * 1024 + 1 * q.val = n.val; rw [(idx_facts t).2.2.1]; omega
  | ⟨1, _⟩ => show win0_1.index t 1 * 1024 + 1 * k.val = kk.val; rw [(idx_facts t).2.2.2.1]; omega

/-- The scale block of point `t` at row `q`. -/
theorem sb_apply (c : Dev nD) (t : Fin cfg0.N) (q : Fin 1024) (n : Fin 11264)
    (hn : n.val = 1024 * (t.val / 4 % 11) + q.val) :
    Acc.sb m c t (ix2 q (0 : Fin 1)) = (V m c main_v2 : S11264x1.Idx → Elt F .f32) (ix2 n (0 : Fin 1)) := by
  show iblk m c 2 t (ix2 q (0 : Fin 1)) = _
  unfold iblk
  rw [View.read_apply]
  show V m c main_v2 (((cfg0.win 2).blk t).view.emb (ix2 q (0 : Fin 1))) = V m c main_v2 (ix2 n (0 : Fin 1))
  refine congrArg _ (funext fun a => Fin.ext ?_)
  match a with
  | ⟨0, _⟩ => show win0_2.index t 0 * 1024 + 1 * q.val = n.val; rw [(idx_facts t).2.2.2.2.1]; omega
  | ⟨1, _⟩ => show win0_2.index t 1 * 1 + 1 * 0 = 0; rw [(idx_facts t).2.2.2.2.2.1]

/-- The bias block of point `t` at column `q`. -/
theorem bb_apply (c : Dev nD) (t : Fin cfg0.N) (q : Fin 1024) (n : Fin 11264)
    (hn : n.val = 1024 * (t.val / 4 % 11) + q.val) :
    Acc.bb m c t (ix2 (0 : Fin 1) q) = (V m c main_v4 : S1x11264.Idx → Elt F .f32) (ix2 (0 : Fin 1) n) := by
  show iblk m c 3 t (ix2 (0 : Fin 1) q) = _
  unfold iblk
  rw [View.read_apply]
  show V m c main_v4 (((cfg0.win 3).blk t).view.emb (ix2 (0 : Fin 1) q)) = V m c main_v4 (ix2 (0 : Fin 1) n)
  refine congrArg _ (funext fun a => Fin.ext ?_)
  match a with
  | ⟨0, _⟩ => show win0_3.index t 0 * 1 + 1 * 0 = 0; rw [(idx_facts t).2.2.2.2.2.2.1]
  | ⟨1, _⟩ => show win0_3.index t 1 * 1024 + 1 * q.val = n.val; rw [(idx_facts t).2.2.2.2.2.2.2.1]; omega

end Cert.KernelIdeal.Entry

end
-- ==== Proof.Final.lean ====
/-
  The kernel's result, entry by entry, over the extended reals.

  `out5` is the padded product array the region leaves: at row `r`, column `n`, the four block sums of
  `x[r, ·] · (float(w[n, ·]) · s[n, 0])` added first to last onto zero, plus the padded bias at `n`, all read from
  the arrays as the region finds them. Each write-back point flushes one 512×1024 block of it (the four steps of
  the accumulation chained), the write-back points' blocks tile the array, and the host tail reshapes it to
  `[4, 2048, 11264]` and cuts the 256 padding columns off.
-/
import proofs.«157685_j70385924047666_1_alg».proof.Proof.BlockSum
import proofs.«157685_j70385924047666_1_alg».proof.Proof.PayIdeal
import proofs.«157685_j70385924047666_1_alg».proof.Proof.Entry

set_option maxRecDepth 16384

noncomputable section

open Idealize.ShloMosaic Idealize.ShloMosaic.TcCoe Idealize.SL.Sem Idealize.ShloMosaic.ValueIdx
open Idealize.ShloMosaic.Pipeline (Dat)

namespace Cert.KernelIdeal.Final

open Cert.KernelIdeal Cert.KernelIdeal.Gen Cert.BlockSum Cert.KernelIdeal.Acc

variable (m : (ℓ : Loc nD τ sig) → Buf (Elt Ideal) ℓ) (ρ : Dev nD → PrngReg)

/-- One product term of output entry `(r, n)`: activation column `kk` of row `r` times the dequantized weight
    `(n, kk)`, of a flattened activation array, a padded weight array and a padded scale array. -/
def termOf (X : S8192x4096.Idx → EReal) (W : S11264x4096.Idx → BitVec 32) (S : S11264x1.Idx → EReal)
    (r : Fin 8192) (n : Fin 11264) (kk : Fin 4096) : EReal :=
  X (ix2 r kk) * (FloatOps.sitofp (F := Ideal) .f32 (W (ix2 n kk)) * S (ix2 n (0 : Fin 1)))

/-- The same of the arrays at region entry. -/
def term (c : Dev nD) (r : Fin 8192) (n : Fin 11264) (kk : Fin 4096) : EReal :=
  termOf (V m c main_v0) (V m c main_v1) (V m c main_v2) r n kk

/-- The padded bias row at region entry, at its literal type. -/
def biasRow (c : Dev nD) : S1x11264.Idx → EReal := V m c main_v4

/-- The padded product array after the region. -/
def out5 (c : Dev nD) : S8192x11264.Idx → EReal := fun j =>
  ((((0 + ∑ k : Fin 1024, term m c (j 0) (j 1) (col 0 k)) + ∑ k : Fin 1024, term m c (j 0) (j 1) (col 1 k))
      + ∑ k : Fin 1024, term m c (j 0) (j 1) (col 2 k)) + ∑ k : Fin 1024, term m c (j 0) (j 1) (col 3 k))
    + biasRow m c (ix2 (0 : Fin 1) (j 1))

/-- The partial product of step `K` at a point of that step is block `K` of the terms. -/
theorem step_sum (c : Dev nD) (t : Fin cfg0.N) (K : Fin 4) (hK : t.val % 4 = K.val) (p : Fin 512) (q : Fin 1024)
    (r : Fin 8192) (n : Fin 11264) (hr : r.val = 512 * (t.val / 44) + p.val) (hn : n.val = 1024 * (t.val / 4 % 11) + q.val) :
    ∑ k : Fin 1024, xb m c t (ix2 p k) * (FloatOps.sitofp (F := Ideal) .f32 (wb m c t (ix2 q k)) * sb m c t (ix2 q (0 : Fin 1)))
      = ∑ k : Fin 1024, term m c r n (col K k) := by
  refine Finset.sum_congr rfl fun k _ => ?_
  unfold term termOf
  rw [Entry.xb_apply m c t p k r (col K k) hr (by rw [col_val, hK]), Entry.wb_apply m c t q k n (col K k) hn (by rw [col_val, hK]),
    Entry.sb_apply m c t q n hn]

/-- The block a write-back point flushes, entry by entry, is `out5` there. -/
theorem flush_entry (c : Dev nD) (t : Fin cfg0.N) (h3 : t.val % 4 = 3) (p : Fin 512) (q : Fin 1024)
    (r : Fin 8192) (n : Fin 11264) (hr : r.val = 512 * (t.val / 44) + p.val) (hn : n.val = 1024 * (t.val / 4 % 11) + q.val) :
    (outsAt0 m c t.val t.isLt).1 (ix2 p q) = out5 m c (ix2 r n) := by
  have hN : t.val < 704 := lt_of_lt_of_eq t.isLt N_0
  have v1 : (prev t).val = t.val - 1 := rfl
  have v2 : (prev (prev t)).val = t.val - 1 - 1 := rfl
  have v3 : (prev (prev (prev t))).val = t.val - 1 - 1 - 1 := rfl
  rw [out_at_flush m c t h3, PayIdeal.emit_apply, PayIdeal.update_apply, PayIdeal.update_apply, PayIdeal.update_apply,
    PayIdeal.update_apply, PayIdeal.zero_apply]
  rw [step_sum m c t 3 h3 p q r n hr hn,
    step_sum m c (prev t) 2 (by rw [v1]; show (t.val - 1) % 4 = 2; omega) p q r n (by rw [v1]; omega) (by rw [v1]; omega),
    step_sum m c (prev (prev t)) 1 (by rw [v2]; show (t.val - 1 - 1) % 4 = 1; omega) p q r n (by rw [v2]; omega) (by rw [v2]; omega),
    step_sum m c (prev (prev (prev t))) 0 (by rw [v3]; show (t.val - 1 - 1 - 1) % 4 = 0; omega) p q r n (by rw [v3]; omega) (by rw [v3]; omega),
    Entry.bb_apply m c t q n hn]
  rfl

/-- WHAT A WRITE-BACK POINT WRITES BACK is its block of `out5`. -/
theorem flushed_eq (c : Dev nD) (t : Fin cfg0.N) (hf : (cfg0.win 4).flush t = true) :
    (dats m 0 c).flushed 4 t = ((cfg0.win 4).blk t).view.read (Elt Ideal) (out5 m c) := by
  have h3 : t.val % 4 = 3 := (flush0_4 t).mp hf
  have hN : t.val < 704 := lt_of_lt_of_eq t.isLt N_0
  show (cfg0.win 4).cut (grid0.coords t) ((dats m 0 c).after 4 t) = _
  rw [after0_4]
  funext j
  obtain ⟨p, q, rfl⟩ : ∃ (p : Fin 512) (q : Fin 1024), j = ix2 p q := ⟨j 0, j 1, eq_ix2 j⟩
  show (outsAt0 m c t.val t.isLt).1 (ix2 p q) = out5 m c (((cfg0.win 4).blk t).view.emb (ix2 p q))
  have hp := p.isLt
  have hq := q.isLt
  have hemb : ((cfg0.win 4).blk t).view.emb (ix2 p q)
      = ix2 (⟨512 * (t.val / 44) + p.val, by omega⟩ : Fin 8192) (⟨1024 * (t.val / 4 % 11) + q.val, by omega⟩ : Fin 11264) := by
    funext a; apply Fin.ext
    match a with
    | ⟨0, _⟩ => show win0_4.index t 0 * 512 + 1 * p.val = 512 * (t.val / 44) + p.val; rw [(Entry.idx_facts t).2.2.2.2.2.2.2.2.1]; omega
    | ⟨1, _⟩ => show win0_4.index t 1 * 1024 + 1 * q.val = 1024 * (t.val / 4 % 11) + q.val; rw [(Entry.idx_facts t).2.2.2.2.2.2.2.2.2]; omega
  rw [hemb]
  exact flush_entry m c t h3 p q _ _ rfl rfl

/-- An entry of the array is in point `t`'s block iff each coordinate is in the block's range on its axis. -/
theorem mem_blk (t : Fin cfg0.N) (i : S8192x11264.Idx) :
    i ∈ ((cfg0.win 4).blk t).view.set ↔ ∀ a : Fin 2, win0_4.index t a * S512x1024.size a ≤ (i a).val
      ∧ (i a).val < win0_4.index t a * S512x1024.size a + S512x1024.size a := by
  show i ∈ ((View.whole main_v5).slice (win0_4.rect t)).set ↔ _
  rw [View.set_slice_whole, Rect.mem_set_unit]
  exact Iff.rfl

/-- THE PRODUCT ARRAY after the run: the write-back points' blocks tile it (entry `(r, n)` is in the block of row
    block `r / 512`, column block `n / 1024`, last step). -/
theorem final (c : Dev nD) : (dats m 0 c).arrAt 4 cfg0.N = out5 m c :=
  (dats m 0 c).arrAt_eq_of_cover 4 (out5 m c) (flushed_eq m c) fun i => by
    have h0 : (i 0).val < 8192 := (i 0).isLt
    have h1 : (i 1).val < 11264 := (i 1).isLt
    have hN : cfg0.N = 704 := N_0
    refine ⟨⟨44 * ((i 0).val / 512) + 4 * ((i 1).val / 1024) + 3, by rw [hN]; omega⟩, (flush0_4 _).mpr (by dsimp only; omega), ?_⟩
    rw [mem_blk]
    intro a
    match a with
    | ⟨0, _⟩ =>
      show win0_4.index _ 0 * 512 ≤ (i 0).val ∧ (i 0).val < win0_4.index _ 0 * 512 + 512
      rw [(Entry.idx_facts _).2.2.2.2.2.2.2.2.1]; dsimp only; omega
    | ⟨1, _⟩ =>
      show win0_4.index _ 1 * 1024 ≤ (i 1).val ∧ (i 1).val < win0_4.index _ 1 * 1024 + 1024
      rw [(Entry.idx_facts _).2.2.2.2.2.2.2.2.2]; dsimp only; omega

/-- The result as the host tail leaves it: the product array reshaped and cut to 11008 columns. -/
def result (c : Dev nD) : S4x2048x11008.Idx → EReal :=
  extractStridedSlice S4x2048x11008 ![0, 0, 0] (shapeCast S4x2048x11264 (out5 m c) shapeCasts_S8192x11264_S4x2048x11264)
    slices_S4x2048x11264_S4x2048x11008_0_0_0

/-- The host tail's result buffer after the run. -/
theorem tail_result (c : Dev nD) :
    Pipeline.afterTail₀ cfgs (dats m) 0 (V0 m) [hostOps1] c main_v7 = result m c := by
  unfold Pipeline.afterTail₀ result
  show StableHlo.after hostOps1 _ (Proc.devRef .tc main_v7) = _
  after_results
  rw [show Pipeline.withArrays spec0 c (V0 m c) (fun w => (dats m 0 c).arrAt w cfg0.N) (Proc.devRef .tc main_v5) = out5 m c from
    (Pipeline.withArrays_arr spec0 launch0.win.arr_inj c _ _ 4).trans (final m c)]
  rfl

/-- THE RUN, READ: every weakly fair execution terminates with the result buffer at `result` and the arguments unchanged. -/
theorem run : θ_run defs (onTc (τ := τ) (main (F := Ideal))) ⟨m, fun _ => 0, ρ⟩ fun r => ∀ c : Dev nD,
      r.2.mem ((c.tc : Thread nD τ).loc main_v7) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c).2 main_v7 (Pipeline.mem_restRefs_of main_v7 (by decide) (by decide))).trans (tail_result m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c)⟩)
    (run_main m ρ)

end Cert.KernelIdeal.Final

end
-- ==== Proof.Spec.lean ====
/-
  The specification both programs meet, entry by entry, over the extended reals: a linear layer with integer
  weights dequantized by a per-row scale,

      out[b, s, o] = (∑ i < 4096, x[b, s, i] · (float(q[o, i]) · scale[o, 0])) + bias[o].
-/
import Idealize.ShloMosaic.Lib.ValueIdx
import Idealize.ShloMosaic.PureOps.Ideal

noncomputable section

open Idealize.ShloMosaic Idealize.ShloMosaic.ValueIdx

namespace Cert.Spec

/-- The dequantized linear layer. -/
def linear (x : (⟨3, ![4, 2048, 4096]⟩ : Shape).Idx → Elt Ideal .f32) (q : (⟨2, ![11008, 4096]⟩ : Shape).Idx → Elt Ideal .i32)
    (s : (⟨2, ![11008, 1]⟩ : Shape).Idx → Elt Ideal .f32) (b : (⟨1, ![11008]⟩ : Shape).Idx → Elt Ideal .f32) :
    (⟨3, ![4, 2048, 11008]⟩ : Shape).Idx → Elt Ideal .f32 := fun i =>
  (∑ k : Fin 4096, x (ix3 (i 0) (i 1) k) * (FloatOps.sitofp (F := Ideal) .f32 (q (ix2 (i 2) k)) * s (ix2 (i 2) (0 : Fin 1))))
    + b (ix1 (i 2))

/-- One term of the sum: feature `k` of row `(b, s)` times the dequantized weight `(o, k)`. -/
def prod (x : (⟨3, ![4, 2048, 4096]⟩ : Shape).Idx → Elt Ideal .f32) (q : (⟨2, ![11008, 4096]⟩ : Shape).Idx → Elt Ideal .i32)
    (s : (⟨2, ![11008, 1]⟩ : Shape).Idx → Elt Ideal .f32) (b : Fin 4) (r : Fin 2048) (o : Fin 11008) (k : Fin 4096) : EReal :=
  x (ix3 b r k) * (FloatOps.sitofp (F := Ideal) .f32 (q (ix2 o k)) * s (ix2 o (0 : Fin 1)))

/-- The layer at coordinates `(b, r, o)`. -/
theorem linear_apply (x : (⟨3, ![4, 2048, 4096]⟩ : Shape).Idx → Elt Ideal .f32) (q : (⟨2, ![11008, 4096]⟩ : Shape).Idx → Elt Ideal .i32)
    (s : (⟨2, ![11008, 1]⟩ : Shape).Idx → Elt Ideal .f32) (bias : (⟨1, ![11008]⟩ : Shape).Idx → Elt Ideal .f32)
    (b : Fin 4) (r : Fin 2048) (o : Fin 11008) :
    linear x q s bias (ix3 b r o) = (∑ k : Fin 4096, prod x q s b r o k) + bias (ix1 o) := rfl

end Cert.Spec

end
-- ==== Proof.KernelSide.lean ====
/-
  The kernel computes the specification: entry `(b, s, o)` of its result is entry `(2048·b + s, o)` of the padded
  product array; there the four block sums are the whole sum over the 4096 input features (in a commutative
  monoid, so with no finiteness assumption), the flattened activations are the activations, and below row 11008
  the padded weights, scales and bias are the arguments.
-/
import proofs.«157685_j70385924047666_1_alg».proof.Proof.Final
import proofs.«157685_j70385924047666_1_alg».proof.Proof.Spec

set_option maxRecDepth 16384

noncomputable section

open Idealize.ShloMosaic Idealize.ShloMosaic.TcCoe Idealize.SL.Sem Idealize.ShloMosaic.ValueIdx

namespace Cert.KernelIdeal.KernelSide

open Cert.KernelIdeal Cert.KernelIdeal.Gen Cert.BlockSum Cert.KernelIdeal.Final

variable (m : (ℓ : Loc nD τ sig) → Buf (Elt Ideal) ℓ)

/-- A term of the padded product array at row `2048·b + s`, column `o < 11008` is the specification's term. -/
theorem term_eq (c : Dev nD) (b : Fin 4) (s : Fin 2048) (o : Fin 11008) (r : Fin 8192) (n : Fin 11264)
    (hr : r.val = 2048 * b.val + s.val) (hn : n.val = o.val) (kk : Fin 4096) :
    term m c r n kk = Cert.Spec.prod (m ((c : Thread nD τ).loc main_arg0)) (m ((c : Thread nD τ).loc main_arg1))
      (m ((c : Thread nD τ).loc main_arg2)) b s o kk := by
  have hn' : n.val < 11008 := by have := o.isLt; omega
  have e : (⟨n.val, hn'⟩ : Fin 11008) = o := Fin.ext hn
  unfold term termOf Cert.Spec.prod
  rw [Entry.x_apply m c b s kk r hr, Entry.w_apply m c n hn' kk, Entry.s_apply m c n hn', e]

/-- The padded product array at row `2048·b + s`, column `o < 11008` is the specification at `(b, s, o)`. -/
theorem out5_apply (c : Dev nD) (b : Fin 4) (s : Fin 2048) (o : Fin 11008) (r : Fin 8192) (n : Fin 11264)
    (hr : r.val = 2048 * b.val + s.val) (hn : n.val = o.val) :
    out5 m c (ix2 r n) = Cert.Spec.linear (m ((c : Thread nD τ).loc main_arg0)) (m ((c : Thread nD τ).loc main_arg1))
      (m ((c : Thread nD τ).loc main_arg2)) (m ((c : Thread nD τ).loc main_arg3)) (ix3 b s o) := by
  have hn' : n.val < 11008 := by have := o.isLt; omega
  have e : (⟨n.val, hn'⟩ : Fin 11008) = o := Fin.ext hn
  rw [Cert.Spec.linear_apply]
  unfold out5
  show ((((0 + ∑ k : Fin 1024, term m c r n (col 0 k)) + ∑ k : Fin 1024, term m c r n (col 1 k))
      + ∑ k : Fin 1024, term m c r n (col 2 k)) + ∑ k : Fin 1024, term m c r n (col 3 k))
    + biasRow m c (ix2 (0 : Fin 1) n) = _
  rw [sum_blocks (fun kk => term m c r n kk)]
  unfold biasRow
  rw [Entry.b_apply m c n hn', e]
  refine congrArg (· + _) (Finset.sum_congr rfl fun kk _ => ?_)
  exact term_eq m c b s o r n hr hn kk

/-- THE KERNEL'S RESULT is the specification of its arguments. -/
theorem result_eq (c : Dev nD) :
    result m c = Cert.Spec.linear (m ((c : Thread nD τ).loc main_arg0)) (m ((c : Thread nD τ).loc main_arg1))
      (m ((c : Thread nD τ).loc main_arg2)) (m ((c : Thread nD τ).loc main_arg3)) := by
  funext i
  obtain ⟨b, s, o, rfl⟩ : ∃ (b : Fin 4) (s : Fin 2048) (o : Fin 11008), i = ix3 b s o := ⟨i 0, i 1, i 2, eq_ix3 i⟩
  have hb := b.isLt
  have hs := s.isLt
  have ho := o.isLt
  unfold result
  refine (extractStridedSlice_apply _ _ _ (ix3 b s o) (ix3 b s (⟨o.val, by omega⟩ : Fin 11264)) (fun a => by
    match a with
    | ⟨0, _⟩ => show b.val = 0 + b.val; omega
    | ⟨1, _⟩ => show s.val = 0 + s.val; omega
    | ⟨2, _⟩ => show o.val = 0 + o.val; omega)).trans ?_
  refine (shapeCast_apply _ _ (ix3 b s (⟨o.val, by omega⟩ : Fin 11264))
    (ix2 (⟨2048 * b.val + s.val, by omega⟩ : Fin 8192) (⟨o.val, by omega⟩ : Fin 11264)) (by
      show (S8192x11264.rowMajor _).val = (S4x2048x11264.rowMajor _).val
      rw [Shape.rowMajor_val_two, Shape.rowMajor_val_three]
      show (2048 * b.val + s.val) * 11264 + o.val = (b.val * 2048 + s.val) * 11264 + o.val
      omega)).trans ?_
  exact out5_apply m c b s o _ _ rfl rfl

end Cert.KernelIdeal.KernelSide

end
-- ==== Proof.RefSide.lean ====
/-
  The reference computes the specification: its einsum is the sum over the 4096 input features of the activation
  times the dequantized weight, its two broadcasts read the bias at the output feature.
-/
import proofs.«157685_j70385924047666_1_alg».proof.Proof.Spec
import proofs.«157685_j70385924047666_1_alg».proof.Proof.Gen.ReferenceIdeal.Read

noncomputable section

open Idealize.ShloMosaic Idealize.ShloMosaic.TcCoe Idealize.SL.Sem Idealize.ShloMosaic.ValueIdx

namespace Cert.ReferenceIdeal.RefValue

open Cert.ReferenceIdeal Cert.ReferenceIdeal.Gen Cert.ReferenceIdeal.Read

/-- The reference's last stage is the specification of its arguments. -/
theorem ref_eq (x0 : (⟨S4x2048x4096, .f32⟩ : BufTy).Contents (Elt Ideal)) (x1 : (⟨S11008x4096, .i32⟩ : BufTy).Contents (Elt Ideal))
    (x2 : (⟨S11008x1, .f32⟩ : BufTy).Contents (Elt Ideal)) (x3 : (⟨S11008, .f32⟩ : BufTy).Contents (Elt Ideal)) :
    val_main_v6 (F := Ideal) x0 x1 x2 x3 = Cert.Spec.linear x0 x1 x2 x3 := by
  funext i
  obtain ⟨b, s, o, rfl⟩ : ∃ (b : Fin 4) (s : Fin 2048) (o : Fin 11008), i = ix3 b s o := ⟨i 0, i 1, i 2, eq_ix3 i⟩
  have e4 : idx_main_v4 (idx_main_v5 (ix3 b s o)) = ix1 o := funext fun a => Fin.ext (by match a with | ⟨0, _⟩ => rfl)
  have el : ∀ k : Fin 4096, lidx_main_v3 (ix3 b s o) k = ix3 b s k := fun k => funext fun a => Fin.ext (by
    match a with | ⟨0, _⟩ => rfl | ⟨1, _⟩ => rfl | ⟨2, _⟩ => rfl)
  have er : ∀ k : Fin 4096, ridx_main_v3 (ix3 b s o) k = ix2 o k := fun k => funext fun a => Fin.ext (by
    match a with | ⟨0, _⟩ => rfl | ⟨1, _⟩ => rfl)
  have e1 : ∀ k : Fin 4096, idx_main_v1 (ix2 o k) = ix2 o (0 : Fin 1) := fun k => funext fun a => Fin.ext (by
    match a with | ⟨0, _⟩ => rfl | ⟨1, _⟩ => rfl)
  rw [val_main_v6_apply, val_main_v3_apply, val_main_v5_apply, val_main_v4_apply, e4]
  unfold Cert.Spec.linear
  show (∑ k : Fin 4096, x0 (lidx_main_v3 (ix3 b s o) k) * val_main_v2 (F := Ideal) x1 x2 (ridx_main_v3 (ix3 b s o) k)) + x3 (ix1 o)
    = (∑ k : Fin 4096, x0 (ix3 b s k) * (FloatOps.sitofp (F := Ideal) .f32 (x1 (ix2 o k)) * x2 (ix2 o (0 : Fin 1)))) + x3 (ix1 o)
  refine congrArg (· + x3 (ix1 o)) (Finset.sum_congr rfl fun k _ => ?_)
  rw [el k, er k]
  refine congrArg (x0 (ix3 b s k) * ·) ?_
  show FloatOps.sitofp (F := Ideal) .f32 (x1 (ix2 o k)) * val_main_v1 (F := Ideal) x2 (ix2 o k) = _
  rw [val_main_v1_apply, e1 k]

end Cert.ReferenceIdeal.RefValue

end
-- ==== Proof.lean ====
/-
  A linear layer with integer weights dequantized by a per-row scale, `x · (float(q) · scale)ᵀ + bias`, computed by a
  tiled kernel and by a plain einsum: the two agree entry by entry over the extended reals.

  The kernel flattens the activations to `[8192, 4096]`, pads the 11008 output features to 11264 with zero rows, and
  walks a `16 × 11 × 4` grid: for each 512 × 1024 output block it runs four steps along the 4096 input features,
  keeping a running sum in a scratch block (reset to zero at the first step, one 1024-wide partial product added
  per step) and emitting the sum plus the bias row at the fourth. The result is reshaped and the padding cut off.
  So entry `(b, s, o)` of its result is `(((0 + S₀) + S₁) + S₂) + S₃ + bias[o]` with `Sₖ` the sum over features
  `1024·k … 1024·k + 1023` of `x[b, s, i] · (float(q[o, i]) · scale[o, 0])`; the reference's entry is the one sum over
  all 4096 features plus `bias[o]`. The two are equal because addition of extended reals is associative and
  commutative with neutral zero; no finiteness of the inputs is needed, and the precondition is never opened.

  The three frames are the generated frame runs (the reference's its generated run with the result dropped); the
  ideal pass rewrote nothing, so the kernel's idealization is the kernel's own text read at the ideal instance.
-/
import proofs.«157685_j70385924047666_1_alg».proof.Defs
import proofs.«157685_j70385924047666_1_alg».proof.Proof.Gen.Kernel
import proofs.«157685_j70385924047666_1_alg».proof.Proof.Gen.Kernel.Skeleton
import proofs.«157685_j70385924047666_1_alg».proof.Proof.Gen.Kernel.Launch
import proofs.«157685_j70385924047666_1_alg».proof.Proof.Gen.Kernel.Points
import proofs.«157685_j70385924047666_1_alg».proof.Proof.Gen.Kernel.Frame
import proofs.«157685_j70385924047666_1_alg».proof.Proof.Gen.KernelIdeal
import proofs.«157685_j70385924047666_1_alg».proof.Proof.Gen.KernelIdeal.Skeleton
import proofs.«157685_j70385924047666_1_alg».proof.Proof.Gen.KernelIdeal.Launch
import proofs.«157685_j70385924047666_1_alg».proof.Proof.Gen.KernelIdeal.Points
import proofs.«157685_j70385924047666_1_alg».proof.Proof.Gen.KernelIdeal.Frame
import proofs.«157685_j70385924047666_1_alg».proof.Proof.Gen.ReferenceIdeal
import proofs.«157685_j70385924047666_1_alg».proof.Proof.Gen.ReferenceIdeal.Run
import proofs.«157685_j70385924047666_1_alg».proof.Proof.Gen.ReferenceIdeal.Read
import proofs.«157685_j70385924047666_1_alg».proof.Proof.Gen.Pre_finite_inputs
import proofs.«157685_j70385924047666_1_alg».proof.Proof.KernelSide
import proofs.«157685_j70385924047666_1_alg».proof.Proof.RefSide
import Idealize.ShloMosaic.Adequacy
import Idealize.ShloMosaic.Init

noncomputable section

namespace Cert.Proof

open Idealize.ShloMosaic Idealize.SL.Sem

/-- The kernel as printed runs to the end and leaves its arguments as they were. -/
theorem frame_kernel : Cert.frame_Kernel := fun m ρ _ => Cert.Kernel.Gen.frame m ρ

/-- So does the kernel read at the ideal instance. -/
theorem frame_kernelIdeal : Cert.frame_KernelIdeal := fun m ρ _ => Cert.KernelIdeal.Gen.frame m ρ

/-- So does the reference: its run, with what it says of the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- No operation of the kernel was rewritten for the ideal reading. -/
theorem preserves : Cert.preserves_Kernel_KernelIdeal := trivial

/-- From memories agreeing on the four arguments both programs end with the dequantized linear layer of those
    arguments in their result buffers: the kernel's four accumulated block sums are the reference's one sum. -/
theorem algebraic : Cert.algebraic_KernelIdeal_ReferenceIdeal := by
  intro m ρ m' ρ' _ hagree
  refine ⟨fun c => Cert.KernelIdeal.Final.result m c, Cert.KernelIdeal.Final.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v6_eq, Cert.ReferenceIdeal.RefValue.ref_eq, (hagree c).1, (hagree c).2.1,
    (hagree c).2.2.1, (hagree c).2.2.2]
  exact (Cert.KernelIdeal.KernelSide.result_eq m c).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
